-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_sqrt_dk" .f32 0x3E3504F3#32 ((2097152 / 11863283 : ℝ) : EReal)
  ∧ IdealRules.named_const.Statement Cert.KernelIdeal.κ "inv_sqrt_dk" .f32 0x3E3504F3#32 ((2097152 / 11863283 : ℝ) : EReal)
  ∧ IdealRules.named_const.Statement Cert.KernelIdeal.κ "inv_sqrt_dk" .f32 0x3E3504F3#32 ((2097152 / 11863283 : ℝ) : EReal)
  ∧ IdealRules.named_const.Statement Cert.KernelIdeal.κ "inv_sqrt_dk" .f32 0x3E3504F3#32 ((2097152 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x12x2048x32 : Shape := ⟨4, ![4, 12, 2048, 32]⟩
abbrev S4x12x2048x2048 : Shape := ⟨4, ![4, 12, 2048, 2048]⟩
abbrev S_ : Shape := ⟨0, ![]⟩

class Facts : Prop where
  bcast_S_S4x12x2048x32 : S_.BroadcastsInDim S4x12x2048x32 (![] : Fin 0 → Fin S4x12x2048x32.rank)
  reducesTo_S4x12x2048x32_S_d0_1_2_3 : S4x12x2048x32.ReducesTo [0, 1, 2, 3] S_
  h_S_ : 0 < S_.numel

variable [Facts]

def fn {F : FTy → Type} [FloatOps F] (main_arg0 : FVec F S4x12x2048x32 .f32) (main_arg1 : FVec F S4x12x2048x32 .f32) (main_arg2 : FVec F S4x12x2048x32 .f32) (main_arg3 : IVec S4x12x2048x2048 1) : IVec S_ 1 :=
  let main_v0 : FVec F S4x12x2048x32 .f32 := Host.absf main_arg0
  let main_cst : FVec F S_ .f32 := constant S_ .f32 0x7F800000#32
  let main_v1 : FVec F S4x12x2048x32 .f32 := broadcastInDim S4x12x2048x32 ![] bcast_S_S4x12x2048x32 main_cst
  let main_v2 : IVec S4x12x2048x32 1 := cmpf .olt main_v0 main_v1
  let main_c : IVec S_ 1 := constantI S_ 1 1#1
  let main_v3 : IVec S_ 1 := (fun x v => Host.reduce IntOp.andi x v reducesTo_S4x12x2048x32_S_d0_1_2_3 h_S_) main_v2 main_c
  let main_v4 : FVec F S4x12x2048x32 .f32 := Host.absf main_arg1
  let main_cst_0 : FVec F S_ .f32 := constant S_ .f32 0x7F800000#32
  let main_v5 : FVec F S4x12x2048x32 .f32 := broadcastInDim S4x12x2048x32 ![] bcast_S_S4x12x2048x32 main_cst_0
  let main_v6 : IVec S4x12x2048x32 1 := cmpf .olt main_v4 main_v5
  let main_c_1 : IVec S_ 1 := constantI S_ 1 1#1
  let main_v7 : IVec S_ 1 := (fun x v => Host.reduce IntOp.andi x v reducesTo_S4x12x2048x32_S_d0_1_2_3 h_S_) main_v6 main_c_1
  let main_v8 : IVec S_ 1 := andi main_v3 main_v7
  let main_v9 : FVec F S4x12x2048x32 .f32 := Host.absf main_arg2
  let main_cst_2 : FVec F S_ .f32 := constant S_ .f32 0x7F800000#32
  let main_v10 : FVec F S4x12x2048x32 .f32 := broadcastInDim S4x12x2048x32 ![] bcast_S_S4x12x2048x32 main_cst_2
  let main_v11 : IVec S4x12x2048x32 1 := cmpf .olt main_v9 main_v10
  let main_c_3 : IVec S_ 1 := constantI S_ 1 1#1
  let main_v12 : IVec S_ 1 := (fun x v => Host.reduce IntOp.andi x v reducesTo_S4x12x2048x32_S_d0_1_2_3 h_S_) main_v11 main_c_3
  let main_v13 : IVec S_ 1 := andi main_v8 main_v12
  main_v13
-- ==== Kernel.lean ====
abbrev S4x12x2048x32 : Shape := ⟨4, ![4, 12, 2048, 32]⟩
abbrev S4x12x2048x2048 : Shape := ⟨4, ![4, 12, 2048, 2048]⟩
abbrev S48x2048x32 : Shape := ⟨3, ![48, 2048, 32]⟩
abbrev S1x512x32 : Shape := ⟨3, ![1, 512, 32]⟩
abbrev S1x2048x32 : Shape := ⟨3, ![1, 2048, 32]⟩
abbrev S512x32 : Shape := ⟨2, ![512, 32]⟩
abbrev S512x1 : Shape := ⟨2, ![512, 1]⟩
abbrev S512x512 : Shape := ⟨2, ![512, 512]⟩
abbrev S512 : Shape := ⟨1, ![512]⟩

abbrev nBuf : Space → Nat
  | .hbm => 9
  | .vmem => 10
  | .smem => 0
  | _ => 0

abbrev bufTy : (tb : Table) → Fin (tcTables nBuf tb) → BufTy
  | .hbm, ⟨0, _⟩ => ⟨S4x12x2048x32, .f32⟩
  | .hbm, ⟨1, _⟩ => ⟨S4x12x2048x32, .f32⟩
  | .hbm, ⟨2, _⟩ => ⟨S4x12x2048x32, .f32⟩
  | .hbm, ⟨3, _⟩ => ⟨S4x12x2048x2048, .i1⟩
  | .hbm, ⟨4, _⟩ => ⟨S48x2048x32, .f32⟩
  | .hbm, ⟨5, _⟩ => ⟨S48x2048x32, .f32⟩
  | .hbm, ⟨6, _⟩ => ⟨S48x2048x32, .f32⟩
  | .hbm, ⟨7, _⟩ => ⟨S48x2048x32, .f32⟩
  | .hbm, ⟨8, _⟩ => ⟨S4x12x2048x32, .f32⟩
  | .local _ .vmem, ⟨0, _⟩ => ⟨S1x512x32, .f32⟩
  | .local _ .vmem, ⟨1, _⟩ => ⟨S1x512x32, .f32⟩
  | .local _ .vmem, ⟨2, _⟩ => ⟨S1x2048x32, .f32⟩
  | .local _ .vmem, ⟨3, _⟩ => ⟨S1x2048x32, .f32⟩
  | .local _ .vmem, ⟨4, _⟩ => ⟨S1x2048x32, .f32⟩
  | .local _ .vmem, ⟨5, _⟩ => ⟨S1x2048x32, .f32⟩
  | .local _ .vmem, ⟨6, _⟩ => ⟨S1x512x32, .f32⟩
  | .local _ .vmem, ⟨7, _⟩ => ⟨S1x512x32, .f32⟩
  | .local _ .vmem, ⟨8, _⟩ => ⟨S512x32, .f32⟩
  | .local _ .vmem, ⟨9, _⟩ => ⟨S512x1, .f32⟩
  | _, _ => ⟨S4x12x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![48, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x12x2048x32_S48x2048x32 : S4x12x2048x32.ShapeCasts S48x2048x32
  inb_S1x512x32_S1x512x32_0_0_0 : ∀ a, (![0, 0, 0] : Fin 3 → Nat) a + S1x512x32.size a ≤ S1x512x32.size a
  h_S1x512x32 : 0 < S1x512x32.numel
  shapeCasts_S1x512x32_S512x32 : S1x512x32.ShapeCasts S512x32
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048x32_S1x512x32_0_0_0 : ∀ a, (![0, 0, 0] : Fin 3 → Nat) a + S1x512x32.size a ≤ S1x2048x32.size a
  reduces_S512x512_S512 : S512x512.Reduces [1] S512
  shapeCasts_S512_S512x1 : S512.ShapeCasts S512x1
  inb_S1x2048x32_S1x512x32_0_512_0 : ∀ a, (![0, 512, 0] : Fin 3 → Nat) a + S1x512x32.size a ≤ S1x2048x32.size a
  inb_S1x2048x32_S1x512x32_0_1024_0 : ∀ a, (![0, 1024, 0] : Fin 3 → Nat) a + S1x512x32.size a ≤ S1x2048x32.size a
  inb_S1x2048x32_S1x512x32_0_1536_0 : ∀ a, (![0, 1536, 0] : Fin 3 → Nat) a + S1x512x32.size a ≤ S1x2048x32.size a
  broadcasts_S512x1_S512x32 : S512x1.Broadcasts S512x32
  shapeCasts_S512x32_S1x512x32 : S512x32.ShapeCasts S1x512x32
  shapeCasts_S48x2048x32_S4x12x2048x32 : S48x2048x32.ShapeCasts S4x12x2048x32
  dot_S512x32_S512x32_S512x512_1_1_0_0_n_n_wf : DotDims.WF S512x32 S512x32 S512x512 [1] [1] [0] [0] [] []
  dot_S512x512_S512x32_S512x32_1_0_0_1_n_n_wf : DotDims.WF S512x512 S512x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x32.size a ≤ S48x2048x32.size a
  hwx0_0 : ∀ i : grid0.Coords, EltTy.bits .f32 = 32 ∨ (Rect.block (s := S48x2048x32) S1x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x32.size a ≤ S48x2048x32.size a
  hwx0_1 : ∀ i : grid0.Coords, EltTy.bits .f32 = 32 ∨ (Rect.block (s := S48x2048x32) S1x2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x32.size a ≤ S48x2048x32.size a
  hwx0_2 : ∀ i : grid0.Coords, EltTy.bits .f32 = 32 ∨ (Rect.block (s := S48x2048x32) S1x2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x32.size a ≤ S48x2048x32.size a
  hwx0_3 : ∀ i : grid0.Coords, EltTy.bits .f32 = 32 ∨ (Rect.block (s := S48x2048x32) S1x512x32.size (cc0_transform_3 i) (hinb0_3 i)).WholeWords (EltTy.packing .f32)

variable [Facts₀]

def dot_S512x32_S512x32_S512x512_1_1_0_0_n_n : DotDims S512x32 S512x32 S512x512 where
  lhsContracting := [1]
  rhsContracting := [1]
  lhsNonContracting := [0]
  rhsNonContracting := [0]
  lhsBatch := []
  rhsBatch := []
  wf := dot_S512x32_S512x32_S512x512_1_1_0_0_n_n_wf
def dot_S512x512_S512x32_S512x32_1_0_0_1_n_n : DotDims S512x512 S512x32 S512x32 where
  lhsContracting := [1]
  rhsContracting := [0]
  lhsNonContracting := [0]
  rhsNonContracting := [1]
  lhsBatch := []
  rhsBatch := []
  wf := dot_S512x512_S512x32_S512x32_1_0_0_1_n_n_wf

abbrev win0_0 : Pipeline.Window sig grid0 :=
  Pipeline.Window.ofSpec (Memref.whole main_v0) S1x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x12x2048x32 : Shape := ⟨4, ![4, 12, 2048, 32]⟩
abbrev S4x12x2048x2048 : Shape := ⟨4, ![4, 12, 2048, 2048]⟩
abbrev S_ : Shape := ⟨0, ![]⟩
abbrev S4x12x2048 : Shape := ⟨3, ![4, 12, 2048]⟩
abbrev S4x12x2048x1 : Shape := ⟨4, ![4, 12, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x12x2048x32, .f32⟩
  | .hbm, ⟨1, _⟩ => ⟨S4x12x2048x32, .f32⟩
  | .hbm, ⟨2, _⟩ => ⟨S4x12x2048x32, .f32⟩
  | .hbm, ⟨3, _⟩ => ⟨S4x12x2048x2048, .i1⟩
  | .hbm, ⟨4, _⟩ => ⟨S4x12x2048x2048, .f32⟩
  | .hbm, ⟨5, _⟩ => ⟨S_, .f32⟩
  | .hbm, ⟨6, _⟩ => ⟨S4x12x2048x2048, .f32⟩
  | .hbm, ⟨7, _⟩ => ⟨S4x12x2048x2048, .f32⟩
  | .hbm, ⟨8, _⟩ => ⟨S4x12x2048x2048, .f32⟩
  | .hbm, ⟨9, _⟩ => ⟨S4x12x2048x2048, .f32⟩
  | .hbm, ⟨10, _⟩ => ⟨S4x12x2048x2048, .f32⟩
  | .hbm, ⟨11, _⟩ => ⟨S4x12x2048x2048, .f32⟩
  | .hbm, ⟨12, _⟩ => ⟨S4x12x2048x2048, .f32⟩
  | .hbm, ⟨13, _⟩ => ⟨S_, .f32⟩
  | .hbm, ⟨14, _⟩ => ⟨S4x12x2048, .f32⟩
  | .hbm, ⟨15, _⟩ => ⟨S4x12x2048x1, .f32⟩
  | .hbm, ⟨16, _⟩ => ⟨S4x12x2048x2048, .f32⟩
  | .hbm, ⟨17, _⟩ => ⟨S4x12x2048x2048, .f32⟩
  | .hbm, ⟨18, _⟩ => ⟨S4x12x2048x32, .f32⟩
  | _, _ => ⟨S4x12x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  dot_S4x12x2048x32_S4x12x2048x32_S4x12x2048x2048_3_3_2_2_01_01_wf : DotDims.WF S4x12x2048x32 S4x12x2048x32 S4x12x2048x2048 [3] [3] [2] [2] [0, 1] [0, 1]
  dot_S4x12x2048x2048_S4x12x2048x32_S4x12x2048x32_3_2_2_3_01_01_wf : DotDims.WF S4x12x2048x2048 S4x12x2048x32 S4x12x2048x32 [3] [2] [2] [3] [0, 1] [0, 1]

variable [Facts₀]

def dot_S4x12x2048x32_S4x12x2048x32_S4x12x2048x2048_3_3_2_2_01_01 : DotDims S4x12x2048x32 S4x12x2048x32 S4x12x2048x2048 where
  lhsContracting := [3]
  rhsContracting := [3]
  lhsNonContracting := [2]
  rhsNonContracting := [2]
  lhsBatch := [0, 1]
  rhsBatch := [0, 1]
  wf := dot_S4x12x2048x32_S4x12x2048x32_S4x12x2048x2048_3_3_2_2_01_01_wf
def dot_S4x12x2048x2048_S4x12x2048x32_S4x12x2048x32_3_2_2_3_01_01 : DotDims S4x12x2048x2048 S4x12x2048x32 S4x12x2048x32 where
  lhsContracting := [3]
  rhsContracting := [2]
  lhsNonContracting := [2]
  rhsNonContracting := [3]
  lhsBatch := [0, 1]
  rhsBatch := [0, 1]
  wf := dot_S4x12x2048x2048_S4x12x2048x32_S4x12x2048x32_3_2_2_3_01_01_wf

class Facts : Prop extends Facts₀ where

variable [Facts]
-- ==== Proof.BodyTerms.lean ====
/-
  The attention kernel's body as a chain of pure values. One grid point loads a query block x0 (512 rows × 32
  features, under a leading unit axis) and the head's whole key and value arrays x1, x2 (2048 rows). It zeroes a
  numerator accumulator (512 × 32) and a normaliser accumulator (512 × 1); for each of the four tiles of 512 key rows
  it forms the scores (query rows · key rows, scaled), the two exponentials e⁺ = exp s and e⁻ = exp (0 − s), adds the
  row sums of e⁺ + e⁻ to the normaliser and the product (e⁺ − e⁻) · (value rows) to the numerator; it stores
  numerator / normaliser. `blockOut` is that value over the printed operations; `tileScore`, `denStep`, `numStep`
  name one tile's step once, and each printed operation group is one of them (`den1_eq` … `blockOut_eq`).
-/
import proofs.«414934_j37426345017597_3_alg».proof.Proof.Gen.KernelIdeal.Skeleton
import Idealize.ShloMosaic.Lib.Pipeline.Value

noncomputable section

open Idealize.ShloMosaic Idealize.SL.Sem

namespace Cert.KernelIdeal.Body

open Cert.KernelIdeal Cert.KernelIdeal.Gen

variable {F : FTy → Type} [FloatOps F] [Named F]

/-- Rows 512·j … 512·j + 511 of a head's key or value array, j = 0, 1, 2, 3. -/
def tile0 (x : Vec F S1x2048x32 .f32) : Vec F S1x512x32 .f32 :=
  View.ld (Val := Elt F) (e' := .f32) x (Rect.unit (s := S1x2048x32) ![0, 0, 0] S1x512x32.size inb_S1x2048x32_S1x512x32_0_0_0)
def tile1 (x : Vec F S1x2048x32 .f32) : Vec F S1x512x32 .f32 :=
  View.ld (Val := Elt F) (e' := .f32) x (Rect.unit (s := S1x2048x32) ![0, 512, 0] S1x512x32.size inb_S1x2048x32_S1x512x32_0_512_0)
def tile2 (x : Vec F S1x2048x32 .f32) : Vec F S1x512x32 .f32 :=
  View.ld (Val := Elt F) (e' := .f32) x (Rect.unit (s := S1x2048x32) ![0, 1024, 0] S1x512x32.size inb_S1x2048x32_S1x512x32_0_1024_0)
def tile3 (x : Vec F S1x2048x32 .f32) : Vec F S1x512x32 .f32 :=
  View.ld (Val := Elt F) (e' := .f32) x (Rect.unit (s := S1x2048x32) ![0, 1536, 0] S1x512x32.size inb_S1x2048x32_S1x512x32_0_1536_0)

/-! ## The printed chain -/

/-- The normaliser accumulator after tiles 0, 0–1, 0–2, 0–3. -/
def den1 (x0 : Vec F S1x512x32 .f32) (x1 : Vec F S1x2048x32 .f32) : Vec F S512x1 .f32 :=
  k0_pay9 x0 (tile0 x1) (k0_pay4 (F := F))
def den2 (x0 : Vec F S1x512x32 .f32) (x1 : Vec F S1x2048x32 .f32) : Vec F S512x1 .f32 :=
  k0_pay14 (k0_pay2 x0) (tile1 x1) (den1 x0 x1)
def den3 (x0 : Vec F S1x512x32 .f32) (x1 : Vec F S1x2048x32 .f32) : Vec F S512x1 .f32 :=
  k0_pay20 (k0_pay2 x0) (tile2 x1) (den2 x0 x1)
def den4 (x0 : Vec F S1x512x32 .f32) (x1 : Vec F S1x2048x32 .f32) : Vec F S512x1 .f32 :=
  k0_pay26 (k0_pay2 x0) (k0_pay22 (tile3 x1)) (den3 x0 x1)

/-- The numerator accumulator after tiles 0, 0–1, 0–2, 0–3. -/
def num1 (x0 : Vec F S1x512x32 .f32) (x1 x2 : Vec F S1x2048x32 .f32) : Vec F S512x32 .f32 :=
  k0_pay10 (k0_pay5 (tile0 x2)) (k0_pay7 x0 (tile0 x1)) (k0_pay8 x0 (tile0 x1)) (k0_pay3 (F := F))
def num2 (x0 : Vec F S1x512x32 .f32) (x1 x2 : Vec F S1x2048x32 .f32) : Vec F S512x32 .f32 :=
  k0_pay16 (k0_pay15 (k0_pay2 x0) (tile1 x1) (tile1 x2) (num1 x0 x1 x2))
def num3 (x0 : Vec F S1x512x32 .f32) (x1 x2 : Vec F S1x2048x32 .f32) : Vec F S512x32 .f32 :=
  k0_pay21 (k0_pay2 x0) (tile2 x1) (tile2 x2) (num2 x0 x1 x2)
def num4 (x0 : Vec F S1x512x32 .f32) (x1 x2 : Vec F S1x2048x32 .f32) : Vec F S512x32 .f32 :=
  k0_pay27 (k0_pay2 x0) (k0_pay22 (tile3 x1)) (tile3 x2) (num3 x0 x1 x2)

/-- The stored block: numerator over normaliser, with the block's leading unit axis added. -/
def blockOut (x0 : Vec F S1x512x32 .f32) (x1 x2 : Vec F S1x2048x32 .f32) : Vec F S1x512x32 .f32 :=
  k0_pay1 (k0_pay28 (num4 x0 x1 x2) (den4 x0 x1))

/-! ## One tile's step, named once -/

/-- A block of 512 rows with its unit axis dropped (the change of float format is part of the operation group). -/
def rows (x : Vec F S1x512x32 .f32) : FVec F S512x32 .bf16 :=
  truncf .bf16 (shapeCast S512x32 x shapeCasts_S1x512x32_S512x32 : FVec F S512x32 .f32) bitsLt_bf16_f32

/-- The scaled scores of 512 query rows against 512 key rows. -/
def tileScore (q kr : FVec F S512x32 .bf16) : FVec F S512x512 .f32 :=
  mulf (matmul dot_S512x32_S512x32_S512x512_1_1_0_0_n_n none q kr (constant S512x512 .f32 0x00000000#32))
    (broadcast S512x512 (Named.named κ "inv_sqrt_dk" 0x3E3504F3#32))

/-- e⁺ and e⁻ of a tile. -/
def ePos (q kr : FVec F S512x32 .bf16) : FVec F S512x512 .f32 := exp (tileScore q kr)
def eNeg (q kr : FVec F S512x32 .bf16) : FVec F S512x512 .f32 :=
  exp (subf (broadcast S512x512 (Scalar.ofBits .f32 0x00000000#32)) (tileScore q kr))

/-- The normaliser after one more tile. -/
def denStep (q kr : FVec F S512x32 .bf16) (prev : Vec F S512x1 .f32) : FVec F S512x1 .f32 :=
  addf prev (shapeCast S512x1 (multiReduction .add [1] S512 (addf (ePos q kr) (eNeg q kr)) 0x00000000#32
    reduces_S512x512_S512 (.inl rfl) rfl) shapeCasts_S512_S512x1)

/-- The numerator after one more tile. -/
def numStep (q kr vr : FVec F S512x32 .bf16) (prev : Vec F S512x32 .f32) : FVec F S512x32 .f32 :=
  addf prev (matmul dot_S512x512_S512x32_S512x32_1_0_0_1_n_n none
    (truncf .bf16 (subf (ePos q kr) (eNeg q kr)) bitsLt_bf16_f32) vr (constant S512x32 .f32 0x00000000#32))

/-- The two accumulators' initial contents. -/
def zeroDen : FVec F S512x1 .f32 := broadcast S512x1 (Scalar.ofBits .f32 0x00000000#32)
def zeroNum : FVec F S512x32 .f32 := broadcast S512x32 (Scalar.ofBits .f32 0x00000000#32)

/-- The four steps in order, over the tiles of the key and value arrays. -/
def denChain (x0 : Vec F S1x512x32 .f32) (x1 : Vec F S1x2048x32 .f32) : FVec F S512x1 .f32 :=
  denStep (rows x0) (rows (tile3 x1)) (denStep (rows x0) (rows (tile2 x1)) (denStep (rows x0) (rows (tile1 x1))
    (denStep (rows x0) (rows (tile0 x1)) zeroDen)))
def numChain (x0 : Vec F S1x512x32 .f32) (x1 x2 : Vec F S1x2048x32 .f32) : FVec F S512x32 .f32 :=
  numStep (rows x0) (rows (tile3 x1)) (rows (tile3 x2)) (numStep (rows x0) (rows (tile2 x1)) (rows (tile2 x2))
    (numStep (rows x0) (rows (tile1 x1)) (rows (tile1 x2)) (numStep (rows x0) (rows (tile0 x1)) (rows (tile0 x2)) zeroNum)))

/-- The stored block over the named steps. -/
def blockForm (x0 : Vec F S1x512x32 .f32) (x1 x2 : Vec F S1x2048x32 .f32) : FVec F S1x512x32 .f32 :=
  shapeCast S1x512x32 (divf (numChain x0 x1 x2) (broadcastTo S512x32 (denChain x0 x1) broadcasts_S512x1_S512x32))
    shapeCasts_S512x32_S1x512x32

/-! ## Each printed group is its step (a shape cast to the same shape is the identity) -/

theorem den1_eq (x0 : Vec F S1x512x32 .f32) (x1 : Vec F S1x2048x32 .f32) :
    den1 x0 x1 = denStep (rows x0) (rows (tile0 x1)) zeroDen := by
  unfold den1 k0_pay9 k0_pay7 k0_pay8 k0_pay6 k0_pay4 k0_pay2
  simp only [shapeCast_self]
  rfl

theorem den2_eq (x0 : Vec F S1x512x32 .f32) (x1 : Vec F S1x2048x32 .f32) :
    den2 x0 x1 = denStep (rows x0) (rows (tile1 x1)) (den1 x0 x1) := by
  unfold den2 k0_pay14 k0_pay12 k0_pay13 k0_pay11 k0_pay2
  simp only [shapeCast_self]
  rfl

theorem den3_eq (x0 : Vec F S1x512x32 .f32) (x1 : Vec F S1x2048x32 .f32) :
    den3 x0 x1 = denStep (rows x0) (rows (tile2 x1)) (den2 x0 x1) := by
  unfold den3 k0_pay20 k0_pay18 k0_pay19 k0_pay17 k0_pay2
  simp only [shapeCast_self]
  rfl

theorem den4_eq (x0 : Vec F S1x512x32 .f32) (x1 : Vec F S1x2048x32 .f32) :
    den4 x0 x1 = denStep (rows x0) (rows (tile3 x1)) (den3 x0 x1) := by
  unfold den4 k0_pay26 k0_pay24 k0_pay25 k0_pay23 k0_pay22 k0_pay2
  simp only [shapeCast_self]
  rfl

theorem num1_eq (x0 : Vec F S1x512x32 .f32) (x1 x2 : Vec F S1x2048x32 .f32) :
    num1 x0 x1 x2 = numStep (rows x0) (rows (tile0 x1)) (rows (tile0 x2)) zeroNum := by
  unfold num1 k0_pay10 k0_pay7 k0_pay8 k0_pay6 k0_pay5 k0_pay3 k0_pay2
  simp only [shapeCast_self]
  rfl

theorem num2_eq (x0 : Vec F S1x512x32 .f32) (x1 x2 : Vec F S1x2048x32 .f32) :
    num2 x0 x1 x2 = numStep (rows x0) (rows (tile1 x1)) (rows (tile1 x2)) (num1 x0 x1 x2) := by
  unfold num2 k0_pay16 k0_pay15 k0_pay12 k0_pay13 k0_pay11 k0_pay2
  simp only [shapeCast_self]
  rfl

theorem num3_eq (x0 : Vec F S1x512x32 .f32) (x1 x2 : Vec F S1x2048x32 .f32) :
    num3 x0 x1 x2 = numStep (rows x0) (rows (tile2 x1)) (rows (tile2 x2)) (num2 x0 x1 x2) := by
  unfold num3 k0_pay21 k0_pay18 k0_pay19 k0_pay17 k0_pay2
  simp only [shapeCast_self]
  rfl

theorem num4_eq (x0 : Vec F S1x512x32 .f32) (x1 x2 : Vec F S1x2048x32 .f32) :
    num4 x0 x1 x2 = numStep (rows x0) (rows (tile3 x1)) (rows (tile3 x2)) (num3 x0 x1 x2) := by
  unfold num4 k0_pay27 k0_pay24 k0_pay25 k0_pay23 k0_pay22 k0_pay2
  simp only [shapeCast_self]
  rfl

/-- The stored block is the block over the named steps. -/
theorem blockOut_eq (x0 : Vec F S1x512x32 .f32) (x1 x2 : Vec F S1x2048x32 .f32) :
    blockOut x0 x1 x2 = blockForm x0 x1 x2 := by
  unfold blockOut
  rw [num4_eq, num3_eq, num2_eq, num1_eq, den4_eq, den3_eq, den2_eq, den1_eq]
  rfl

end Cert.KernelIdeal.Body

end
-- ==== Proof.Body.lean ====
/-
  What one grid point of the attention kernel leaves in its output block is `blockOut` of the three blocks it loads:
  the body's one store of the output covers the block; each load of an input reads the loaded block (a tile of it, for
  the keys and the values); and each load of an accumulator reads what the store just before it left.
-/
import proofs.«414934_j37426345017597_3_alg».proof.Proof.Gen.KernelIdeal.Frame
import proofs.«414934_j37426345017597_3_alg».proof.Proof.BodyTerms
import Idealize.ShloMosaic.Lib.Pipeline.Value
import Idealize.ShloMosaic.Lib.Tactic

set_option maxRecDepth 16384

noncomputable section

open Idealize.ShloMosaic Idealize.ShloMosaic.TcCoe Idealize.SL.Sem

namespace Idealize.ShloMosaic.View

variable {Val : EltTy → Type} {S : Shape} {e : EltTy}

/-- A load of the whole buffer after a list of stores whose LAST one wrote the whole buffer reads that store's value,
    whatever the earlier stores were. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

namespace Cert.KernelIdeal.Body

open Cert.KernelIdeal Cert.KernelIdeal.Gen

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-- The output block the body leaves is `blockOut` of the three loaded blocks. -/
theorem out_eq (c : Dev nD) (i : grid0.Coords) (arg2 : Memref sig .tc .vmem S1x512x32 .f32) (harg2 : arg2.IsWhole) (arg3 : Memref sig .tc .vmem S1x2048x32 .f32) (harg3 : arg3.IsWhole) (arg4 : Memref sig .tc .vmem S1x2048x32 .f32) (harg4 : arg4.IsWhole) (arg5 : Memref sig .tc .vmem S1x512x32 .f32) (harg5 : arg5.IsWhole) (arg6 : Memref sig .tc .vmem S512x32 .f32) (harg6 : arg6.IsWhole) (arg7 : Memref sig .tc .vmem S512x1 .f32) (harg7 : arg7.IsWhole)
    (x0 : Vec F S1x512x32 .f32) (x1 : Vec F S1x2048x32 .f32) (x2 : Vec F S1x2048x32 .f32) :
    out0_A_3 c i arg2 harg2 arg3 harg3 arg4 harg4 arg5 harg5 arg6 harg6 arg7 harg7 x0 x1 x2 = blockOut x0 x1 x2 := by
  unfold out0_A_3
  rw [View.read_writes_eq_canon _ _ _ (cover0_A_3 c i arg2 harg2 arg3 harg3 arg4 harg4 arg5 harg5 arg6 harg6 arg7 harg7 x0 x1 x2)]
  unfold kernelRun0_A
  dsimp only
  sl_unfold_words
  rw [View.canon_unit_zero hz3]
  simp only [View.readAt_eq_ld, harg2.read_unread, harg3.read_unread, harg4.read_unread,
    View.ld_unit_zero (S := S1x512x32) hz3, View.readCov_cons_unit_zero (S := S512x32) _ hz2,
    View.readCov_cons_unit_zero (S := S512x1) _ hz2, View.readCov_unit_zero (S := S512x32) _ hz2,
    View.readCov_unit_zero (S := S512x1) _ hz2]
  rfl

end Cert.KernelIdeal.Body

end
-- ==== Proof.Spec.lean ====
/-
  Attention with the two-sided exponential weighting, one query row at a time, on the extended reals.

  For a query row q (32 features) and the 2048 key rows K and value rows V of its head, write s k for the
  scaled score of key k, e⁺ k = exp (s k), e⁻ k = exp (−s k). The output feature d is
      Σ_k ((e⁺ k − e⁻ k) / Z) · V k d      with      Z = Σ_k (e⁺ k + e⁻ k).
  Two spellings of this number are defined here.
  * `tiledOut`: the keys are visited in four tiles of 512; the scaled score is the feature product TIMES the
    reciprocal 2097152/11863283 of the divisor; a running numerator Σ (e⁺ − e⁻)·V and a running normaliser
    Σ (e⁺ + e⁻) are accumulated tile after tile from zero, e⁻ written exp (0 − s); one division at the end.
  * `wholeOut`: the scaled score is the feature product DIVIDED by the divisor 11863283/2097152 (the binary32
    value 0x40B504F3); every weight is divided by Z before the weighted sum over all 2048 keys.
  They agree when q, K and V are real (`tiledOut_eq_wholeOut`): then every score is real, every exponential a
  positive real, Z a positive real, and the division distributes over the finite sum.
-/
import Idealize.ShloMosaic.PureOps.Ideal.Laws

noncomputable section

namespace Cert.Attn

open Idealize.ShloMosaic

/-- Key number 512·j + k: key k of tile j. -/
def tileKey (j : Fin 4) (k : Fin 512) : Fin 2048 := ⟨512 * j.val + k.val, by omega⟩

/-- The reciprocal of the score divisor, as the exact rational. -/
abbrev invDiv : EReal := ((2097152 / 11863283 : ℝ) : EReal)

/-- The feature product of two rows. -/
def rowDot (x y : Fin 32 → EReal) : EReal := ∑ d : Fin 32, x d * y d

/-- The scaled score, by the reciprocal. -/
def mulScore (q kr : Fin 32 → EReal) : EReal := rowDot q kr * invDiv

/-- The scaled score, by the division. -/
def divScore (q kr : Fin 32 → EReal) : EReal := Ideal.div (rowDot q kr) (Ideal.ofBits .f32 0x40B504F3#32)

/-- One tile's share of the normaliser. -/
def tileDen (q : Fin 32 → EReal) (K : Fin 2048 → Fin 32 → EReal) (j : Fin 4) : EReal :=
  ∑ k : Fin 512, (Ideal.exp (mulScore q (K (tileKey j k))) + Ideal.exp (0 - mulScore q (K (tileKey j k))))

/-- One tile's share of the numerator of feature d. -/
def tileNum (q : Fin 32 → EReal) (K V : Fin 2048 → Fin 32 → EReal) (j : Fin 4) (d : Fin 32) : EReal :=
  ∑ k : Fin 512, (Ideal.exp (mulScore q (K (tileKey j k))) - Ideal.exp (0 - mulScore q (K (tileKey j k)))) * V (tileKey j k) d

/-- The output accumulated tile after tile, divided once at the end. -/
def tiledOut (q : Fin 32 → EReal) (K V : Fin 2048 → Fin 32 → EReal) (d : Fin 32) : EReal :=
  Ideal.div ((((0 + tileNum q K V 0 d) + tileNum q K V 1 d) + tileNum q K V 2 d) + tileNum q K V 3 d)
    ((((0 + tileDen q K 0) + tileDen q K 1) + tileDen q K 2) + tileDen q K 3)

/-- The output as the sum over all keys of normalised weights times values. -/
def wholeOut (q : Fin 32 → EReal) (K V : Fin 2048 → Fin 32 → EReal) (d : Fin 32) : EReal :=
  ∑ k : Fin 2048, Ideal.div (Ideal.exp (divScore q (K k)) - Ideal.exp (-(divScore q (K k))))
      (0 + ∑ k' : Fin 2048, (Ideal.exp (divScore q (K k')) + Ideal.exp (-(divScore q (K k'))))) * V k d

end Cert.Attn

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibDotRows.lean ====
/-
  A matrix product of two row-major operands contracted over their SECOND axes (A · Bᵀ), read at an output index as a
  sum over that axis's coordinate: for A of extents [M, K] and B of extents [N, K], entry (r, c) of the product into the
  zero accumulator is Σ_k A (r, k) · B (c, k). Stated for any extents and any dimension-numbers record whose axis
  lists are: contracted [1] and [1], free [0] and [0], no batch axes.
-/
import Idealize.ShloMosaic.PureOps.Ideal.Laws
import Idealize.ShloMosaic.Lib.ValueIdx

noncomputable section

namespace Cert.Lib

open Idealize.ShloMosaic Idealize.ShloMosaic.ValueIdx

variable {M K N : Nat}

/-- The dimension numbers of an [M, K] × [N, K]ᵀ product. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's row is the output's row. -/
theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
/-- The left operand's column is the contraction coordinate. -/
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
/-- The right operand's row is the output's column. -/
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
/-- The right operand's column is the contraction coordinate. -/
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-- A product contracted over both operands' second axes, into the zero accumulator, at (r, c): the sum over k of
    A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

end Cert.Lib

end
-- ==== Proof.BodyValue.lean ====
/-
  The stored block of one grid point, read at a position, on the extended reals.

  With the query block x0 holding rows 512·qi … of head bh's query array and x1, x2 the head's whole key and value
  arrays, entry (r, d) of the stored block is `tiledOut` of query row 512·qi + r against the head's key and value rows:
  each tile's scores are the row products scaled by the NAMED reciprocal 2097152/11863283, a lane sum and both matrix
  products are plain finite sums, a change of float format is the identity, and the two accumulators start from zero.
-/
import proofs.«414934_j37426345017597_3_alg».proof.Proof.BodyTerms
import proofs.«414934_j37426345017597_3_alg».proof.Proof.Spec
import proofs.«414934_j37426345017597_3_alg».proof.Proof.LibDotSum
import proofs.«414934_j37426345017597_3_alg».proof.Proof.LibDotRows
import Idealize.ShloMosaic.Lib.ValueIdx
import Idealize.ShloMosaic.Lib.ValueLayout
import Idealize.ShloMosaic.PureOps.Ideal.Laws
import Idealize.ShloMosaic.PureOps.IdealRules

noncomputable section

open Idealize.ShloMosaic Idealize.ShloMosaic.ValueIdx Idealize.SL.Sem

namespace Cert.KernelIdeal.Body

open Cert.KernelIdeal Cert.KernelIdeal.Gen Cert.Attn

/-! ## Layout operations of the body, at an index -/

/-- A column [a, 1] broadcast along rows to [a, b] reads, at (p, c), the column's entry p. -/
theorem colBroadcast_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (p, u), the vector's entry p. -/
theorem colCast_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- The lane sum of a 512 × 512 array at row r is the sum of the row's entries. -/
theorem rowSum_apply (v : FVec Ideal S512x512 .f32) (hacc : (0x00000000#32 : BitVec 32) = 0x00000000#32) (r : Fin 512) :
    multiReduction .add [1] S512 v 0x00000000#32 reduces_S512x512_S512 (.inl rfl) hacc (ix1 r) = ∑ k : Fin 512, v (ix2 r k) := by
  refine (Ideal.multiReduction_add_single v 0x00000000#32 reduces_S512x512_S512 (.inl rfl) hacc (ix1 r)).trans ?_
  refine Finset.sum_congr rfl fun k _ => congrArg v ?_
  exact funext fun a => Fin.ext (by match a with | ⟨0, _⟩ => rfl | ⟨1, _⟩ => rfl)

/-! ## One tile's step at an index -/

/-- The named scale is the rational the table gives it. -/
theorem scale_eq : Named.named (F := Ideal) κ "inv_sqrt_dk" (φ := .f32) 0x3E3504F3#32 = invDiv :=
  IdealRules.named_const.ideal_named_scalar _ _ _ _ rfl

/-- A block's rows, unit axis dropped. -/
theorem rows_apply (x : Vec Ideal S1x512x32 .f32) (r : Fin 512) (e : Fin 32) :
    rows x (ix2 r e) = x (ix3 (0 : Fin 1) r e) :=
  shapeCast_1ab_ab_apply x shapeCasts_S1x512x32_S512x32 r e

/-- The scaled score of query row r against key row k of the tile. -/
theorem tileScore_apply (q kr : FVec Ideal S512x32 .bf16) (r k : Fin 512) :
    tileScore q kr (ix2 r k) = mulScore (fun e => q (ix2 r e)) (fun e => kr (ix2 k e)) := by
  unfold tileScore
  rw [mulf_apply, broadcast_apply, scale_eq,
    Cert.Lib.matmul_rr_apply dot_S512x32_S512x32_S512x512_1_1_0_0_n_n rfl rfl rfl rfl rfl rfl]
  rfl

theorem ePos_apply (q kr : FVec Ideal S512x32 .bf16) (r k : Fin 512) :
    ePos q kr (ix2 r k) = Ideal.exp (tileScore q kr (ix2 r k)) := rfl

theorem eNeg_apply (q kr : FVec Ideal S512x32 .bf16) (r k : Fin 512) :
    eNeg q kr (ix2 r k) = Ideal.exp (0 - tileScore q kr (ix2 r k)) := by
  show Ideal.exp (Ideal.ofBits .f32 0x00000000#32 - tileScore q kr (ix2 r k)) = _
  rw [Ideal.ofBits_zero_f32]

/-- The normaliser after one more tile, at row r. -/
theorem denStep_apply (q kr : FVec Ideal S512x32 .bf16) (prev : Vec Ideal S512x1 .f32) (r : Fin 512) :
    denStep q kr prev (ix2 r (0 : Fin 1))
      = prev (ix2 r (0 : Fin 1)) + ∑ k : Fin 512,
          (Ideal.exp (mulScore (fun e => q (ix2 r e)) (fun e => kr (ix2 k e)))
            + Ideal.exp (0 - mulScore (fun e => q (ix2 r e)) (fun e => kr (ix2 k e)))) := by
  unfold denStep
  rw [addf_apply, colCast_apply]
  refine congrArg (prev (ix2 r (0 : Fin 1)) + ·) ((rowSum_apply _ _ r).trans (Finset.sum_congr rfl fun k _ => ?_))
  rw [addf_apply, ePos_apply, eNeg_apply, tileScore_apply]

/-- The numerator after one more tile, at (r, d). -/
theorem numStep_apply (q kr vr : FVec Ideal S512x32 .bf16) (prev : Vec Ideal S512x32 .f32) (r : Fin 512) (d : Fin 32) :
    numStep q kr vr prev (ix2 r d)
      = prev (ix2 r d) + ∑ k : Fin 512,
          (Ideal.exp (mulScore (fun e => q (ix2 r e)) (fun e => kr (ix2 k e)))
            - Ideal.exp (0 - mulScore (fun e => q (ix2 r e)) (fun e => kr (ix2 k e)))) * vr (ix2 k d) := by
  unfold numStep
  rw [addf_apply, Cert.Lib.matmul_rc_apply dot_S512x512_S512x32_S512x32_1_0_0_1_n_n rfl rfl rfl rfl rfl rfl]
  refine congrArg (prev (ix2 r d) + ·) (Finset.sum_congr rfl fun k _ => ?_)
  rw [truncf_apply, subf_apply, ePos_apply, eNeg_apply, tileScore_apply]

/-! ## The tiles of a head's array -/

/-- Row k of tile j of a head's key or value array is row 512·j + k of the array. -/
theorem tile0_apply (x : Vec Ideal S1x2048x32 .f32) (k : Fin 512) (e : Fin 32) :
    tile0 x (ix3 (0 : Fin 1) k e) = x (ix3 (0 : Fin 1) (tileKey 0 k) e) :=
  congrArg x (funext fun a => Fin.ext (by
    match a with
    | ⟨0, _⟩ => rfl
    | ⟨1, _⟩ => show 0 + 1 * k.val = 512 * 0 + k.val; omega
    | ⟨2, _⟩ => show 0 + 1 * e.val = e.val; omega))
theorem tile1_apply (x : Vec Ideal S1x2048x32 .f32) (k : Fin 512) (e : Fin 32) :
    tile1 x (ix3 (0 : Fin 1) k e) = x (ix3 (0 : Fin 1) (tileKey 1 k) e) :=
  congrArg x (funext fun a => Fin.ext (by
    match a with
    | ⟨0, _⟩ => rfl
    | ⟨1, _⟩ => show 512 + 1 * k.val = 512 * 1 + k.val; omega
    | ⟨2, _⟩ => show 0 + 1 * e.val = e.val; omega))
theorem tile2_apply (x : Vec Ideal S1x2048x32 .f32) (k : Fin 512) (e : Fin 32) :
    tile2 x (ix3 (0 : Fin 1) k e) = x (ix3 (0 : Fin 1) (tileKey 2 k) e) :=
  congrArg x (funext fun a => Fin.ext (by
    match a with
    | ⟨0, _⟩ => rfl
    | ⟨1, _⟩ => show 1024 + 1 * k.val = 512 * 2 + k.val; omega
    | ⟨2, _⟩ => show 0 + 1 * e.val = e.val; omega))
theorem tile3_apply (x : Vec Ideal S1x2048x32 .f32) (k : Fin 512) (e : Fin 32) :
    tile3 x (ix3 (0 : Fin 1) k e) = x (ix3 (0 : Fin 1) (tileKey 3 k) e) :=
  congrArg x (funext fun a => Fin.ext (by
    match a with
    | ⟨0, _⟩ => rfl
    | ⟨1, _⟩ => show 1536 + 1 * k.val = 512 * 3 + k.val; omega
    | ⟨2, _⟩ => show 0 + 1 * e.val = e.val; omega))

/-! ## The stored block at a position -/

/-- The two accumulators start from zero. -/
theorem zeroDen_apply (i : S512x1.Idx) : zeroDen (F := Ideal) i = 0 := Ideal.ofBits_zero_f32
theorem zeroNum_apply (i : S512x32.Idx) : zeroNum (F := Ideal) i = 0 := Ideal.ofBits_zero_f32

/-- Entry (r, d) of the stored block: the tiled attention output of the block's query row r against the key and
    value rows of the two whole arrays. -/
theorem blockForm_apply (x0 : Vec Ideal S1x512x32 .f32) (x1 x2 : Vec Ideal S1x2048x32 .f32)
    (u : Fin 1) (r : Fin 512) (d : Fin 32) :
    blockForm x0 x1 x2 (ix3 u r d)
      = tiledOut (fun e => x0 (ix3 (0 : Fin 1) r e)) (fun k e => x1 (ix3 (0 : Fin 1) k e))
          (fun k e => x2 (ix3 (0 : Fin 1) k e)) d := by
  unfold blockForm
  rw [shapeCast_ab_1ab_apply, divf_apply, colBroadcast_apply]
  unfold tiledOut tileNum tileDen numChain denChain
  simp only [numStep_apply, denStep_apply, zeroNum_apply, zeroDen_apply, rows_apply,
    tile0_apply, tile1_apply, tile2_apply, tile3_apply]

end Cert.KernelIdeal.Body

end
-- ==== Proof.Blocks.lean ====
/-
  From the blocks the grid points write back to the kernel's result array.

  The grid has 48 × 4 points: point t works on head bh = 0 … 47 and query block qi = 0 … 3. Its query window is rows
  512·qi … 512·qi + 511 of head bh's query array, its key and value windows are head bh's whole arrays, and it writes
  back rows 512·qi … of head bh of the result. What it writes back is, entry by entry, `rowOut`: the tiled attention
  output of that query row against the head's key and value rows. The 192 blocks tile the result array, so after the
  run the array is that function everywhere (`final`).
-/
import proofs.«414934_j37426345017597_3_alg».proof.Proof.Body
import proofs.«414934_j37426345017597_3_alg».proof.Proof.BodyValue
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Blocks

open Cert.KernelIdeal Cert.KernelIdeal.Gen Cert.Attn

variable (m : (ℓ : Loc nD τ sig) → Buf (Elt Ideal) ℓ)

/-! ## The result as one function of the three arrays the region finds -/

/-- The output of query row s of head bh at feature d. -/
def rowOut (Q K V : S48x2048x32.Idx → EReal) (bh : Fin 48) (s : Fin 2048) (d : Fin 32) : EReal :=
  tiledOut (fun e => Q (ix3 bh s e)) (fun k e => K (ix3 bh k e)) (fun k e => V (ix3 bh k e)) d

theorem rowOut_congr (Q K V : S48x2048x32.Idx → EReal) {bh bh' : Fin 48} {s s' : Fin 2048} {d d' : Fin 32}
    (h0 : bh.val = bh'.val) (h1 : s.val = s'.val) (h2 : d.val = d'.val) : rowOut Q K V bh s d = rowOut Q K V bh' s' d' := by
  obtain rfl := Fin.ext h0; obtain rfl := Fin.ext h1; obtain rfl := Fin.ext h2; rfl

/-- The whole result array. -/
def G (Q K V : S48x2048x32.Idx → EReal) : S48x2048x32.Idx → EReal := fun i =>
  rowOut Q K V ⟨(i 0).val, (i 0).isLt⟩ ⟨(i 1).val, (i 1).isLt⟩ ⟨(i 2).val, (i 2).isLt⟩

theorem G_ix3 (Q K V : S48x2048x32.Idx → EReal) (bh : Fin 48) (s : Fin 2048) (d : Fin 32) :
    G Q K V (ix3 bh s d) = rowOut Q K V bh s d := rfl

/-- The three arrays as the region finds them, and a point's three input blocks, at their literal types. -/
abbrev Qarr (c : Dev nD) : S48x2048x32.Idx → EReal := V m c main_v0
abbrev Karr (c : Dev nD) : S48x2048x32.Idx → EReal := V m c main_v1
abbrev Varr (c : Dev nD) : S48x2048x32.Idx → EReal := V m c main_v2
abbrev qblk (c : Dev nD) (t : Fin cfg0.N) : Vec Ideal S1x512x32 .f32 := iblk m c 0 t
abbrev kblk (c : Dev nD) (t : Fin cfg0.N) : Vec Ideal S1x2048x32 .f32 := iblk m c 1 t
abbrev vblk (c : Dev nD) (t : Fin cfg0.N) : Vec Ideal S1x2048x32 .f32 := iblk m c 2 t

/-! ## The windows' index maps, decided over the grid -/

/-- The query window moves with the output window; the key and value windows follow its head and stay at row 0; the
    output window's head and block numbers stay in range. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 48 ∧ win0_3.index t (1 : Fin 3) < 4 ∧ win0_3.index t (2 : Fin 3) = 0 :=
  (by decide +kernel : ∀ t : Fin grid0.N, _)

/-- Every (head, query block) pair is some point's. -/
theorem idx_onto : ∀ (q0 : Fin 48) (q1 : Fin 4), ∃ t : Fin cfg0.N, win0_3.index t = ![q0.val, q1.val, 0] :=
  (by decide +kernel : ∀ (q0 : Fin 48) (q1 : Fin 4), ∃ t : Fin grid0.N, win0_3.index t = ![q0.val, q1.val, 0])

/-! ## A point's input blocks are the arrays read where the windows say -/

theorem qblk_apply (c : Dev nD) (t : Fin cfg0.N) (bh : Fin 48) (s : Fin 2048) (r : Fin 512) (e : Fin 32)
    (h0 : win0_0.index t (0 : Fin 3) = bh.val) (h1 : win0_0.index t (1 : Fin 3) * 512 + r.val = s.val)
    (h2 : win0_0.index t (2 : Fin 3) = 0) :
    qblk m c t (ix3 (0 : Fin 1) r e) = Qarr m c (ix3 bh s e) := by
  show V m c main_v0 (((cfg0.win 0).blk t).view.emb (ix3 (0 : Fin 1) r e)) = V m c main_v0 (ix3 bh s e)
  refine congrArg (V m c main_v0) (funext fun a => Fin.ext ?_)
  match a with
  | ⟨0, _⟩ => show win0_0.index t (0 : Fin 3) * 1 + 1 * 0 = bh.val; omega
  | ⟨1, _⟩ => show win0_0.index t (1 : Fin 3) * 512 + 1 * r.val = s.val; omega
  | ⟨2, _⟩ => show win0_0.index t (2 : Fin 3) * 32 + 1 * e.val = e.val; omega

theorem kblk_apply (c : Dev nD) (t : Fin cfg0.N) (bh : Fin 48) (k : Fin 2048) (e : Fin 32)
    (h0 : win0_1.index t (0 : Fin 3) = bh.val) (h1 : win0_1.index t (1 : Fin 3) = 0) (h2 : win0_1.index t (2 : Fin 3) = 0) :
    kblk m c t (ix3 (0 : Fin 1) k e) = Karr m c (ix3 bh k e) := by
  show V m c main_v1 (((cfg0.win 1).blk t).view.emb (ix3 (0 : Fin 1) k e)) = V m c main_v1 (ix3 bh k e)
  refine congrArg (V m c main_v1) (funext fun a => Fin.ext ?_)
  match a with
  | ⟨0, _⟩ => show win0_1.index t (0 : Fin 3) * 1 + 1 * 0 = bh.val; omega
  | ⟨1, _⟩ => show win0_1.index t (1 : Fin 3) * 2048 + 1 * k.val = k.val; omega
  | ⟨2, _⟩ => show win0_1.index t (2 : Fin 3) * 32 + 1 * e.val = e.val; omega

theorem vblk_apply (c : Dev nD) (t : Fin cfg0.N) (bh : Fin 48) (k : Fin 2048) (e : Fin 32)
    (h0 : win0_2.index t (0 : Fin 3) = bh.val) (h1 : win0_2.index t (1 : Fin 3) = 0) (h2 : win0_2.index t (2 : Fin 3) = 0) :
    vblk m c t (ix3 (0 : Fin 1) k e) = Varr m c (ix3 bh k e) := by
  show V m c main_v2 (((cfg0.win 2).blk t).view.emb (ix3 (0 : Fin 1) k e)) = V m c main_v2 (ix3 bh k e)
  refine congrArg (V m c main_v2) (funext fun a => Fin.ext ?_)
  match a with
  | ⟨0, _⟩ => show win0_2.index t (0 : Fin 3) * 1 + 1 * 0 = bh.val; omega
  | ⟨1, _⟩ => show win0_2.index t (1 : Fin 3) * 2048 + 1 * k.val = k.val; omega
  | ⟨2, _⟩ => show win0_2.index t (2 : Fin 3) * 32 + 1 * e.val = e.val; omega

/-! ## What a point writes back -/

/-- Two blocks that agree entry by entry are equal. -/
theorem block_ext (X Y : S1x512x32.Idx → EReal)
    (h : ∀ (u : Fin 1) (r : Fin 512) (d : Fin 32), X (ix3 u r d) = Y (ix3 u r d)) : X = Y :=
  funext fun j => by
    obtain ⟨u, r, d, rfl⟩ : ∃ (u : Fin 1) (r : Fin 512) (d : Fin 32), j = ix3 u r d := ⟨j 0, j 1, j 2, eq_ix3 j⟩
    exact h u r d

/-- WHAT POINT t WRITES BACK is block t of the whole-array function. -/
theorem flushed_eq (c : Dev nD) (t : Fin cfg0.N) :
    (dats m 0 c).flushed 3 t = ((cfg0.win 3).blk t).view.read (Elt Ideal) (G (Qarr m c) (Karr m c) (Varr m c)) := by
  show (cfg0.win 3).cut (grid0.coords t) ((dats m 0 c).after 3 t) = _
  rw [after0_3]
  unfold outsAt0
  obtain ⟨e00, e01, e02, e10, e11, e12, e20, e21, e22, b0, b1, b2⟩ := idx_facts t
  refine block_ext _ _ fun u r d => ?_
  show out0_A_3 c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (qblk m c t) (kblk m c t) (vblk m c t) (ix3 u r d)
    = G (Qarr m c) (Karr m c) (Varr m c) (((cfg0.win 3).blk t).view.emb (ix3 u r d))
  rw [Body.out_eq (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (qblk m c t) (kblk m c t) (vblk m c t),
    Body.blockOut_eq, Body.blockForm_apply]
  have hs : 512 * win0_3.index t (1 : Fin 3) + r.val < 2048 := by have := r.isLt; omega
  have hG : G (Qarr m c) (Karr m c) (Varr m c) (((cfg0.win 3).blk t).view.emb (ix3 u r d))
      = rowOut (Qarr m c) (Karr m c) (Varr m c) ⟨win0_3.index t (0 : Fin 3), b0⟩
          ⟨512 * win0_3.index t (1 : Fin 3) + r.val, hs⟩ d := by
    unfold G
    refine rowOut_congr _ _ _ ?_ ?_ ?_
    · show win0_3.index t (0 : Fin 3) * 1 + 1 * u.val = win0_3.index t (0 : Fin 3); have := u.isLt; omega
    · show win0_3.index t (1 : Fin 3) * 512 + 1 * r.val = 512 * win0_3.index t (1 : Fin 3) + r.val; omega
    · show win0_3.index t (2 : Fin 3) * 32 + 1 * d.val = d.val; omega
  rw [hG]
  unfold rowOut
  have hq : (fun e => qblk m c t (ix3 (0 : Fin 1) r e))
      = fun e => Qarr m c (ix3 (⟨win0_3.index t (0 : Fin 3), b0⟩ : Fin 48) (⟨512 * win0_3.index t (1 : Fin 3) + r.val, hs⟩ : Fin 2048) e) :=
    funext fun e => qblk_apply m c t _ _ r e (by show _ = win0_3.index t (0 : Fin 3); exact e00)
      (by show _ = 512 * win0_3.index t (1 : Fin 3) + r.val; omega) e02
  have hk : (fun k e => kblk m c t (ix3 (0 : Fin 1) k e))
      = fun k e => Karr m c (ix3 (⟨win0_3.index t (0 : Fin 3), b0⟩ : Fin 48) k e) :=
    funext fun k => funext fun e => kblk_apply m c t _ k e (by show _ = win0_3.index t (0 : Fin 3); exact e10) e11 e12
  have hv : (fun k e => vblk m c t (ix3 (0 : Fin 1) k e))
      = fun k e => Varr m c (ix3 (⟨win0_3.index t (0 : Fin 3), b0⟩ : Fin 48) k e) :=
    funext fun k => funext fun e => vblk_apply m c t _ k e (by show _ = win0_3.index t (0 : Fin 3); exact e20) e21 e22
  rw [hq, hk, hv]

/-! ## The blocks tile the result array -/

/-- An index of the array is in point t's block iff each coordinate is in the block's range on its axis. -/
theorem mem_blk (t : Fin cfg0.N) (i : S48x2048x32.Idx) :
    i ∈ ((cfg0.win 3).blk t).view.set ↔ ∀ a : Fin 3, win0_3.index t a * S1x512x32.size a ≤ (i a).val
      ∧ (i a).val < win0_3.index t a * S1x512x32.size a + S1x512x32.size a := by
  show i ∈ ((View.whole main_v3).slice (win0_3.rect t)).set ↔ _
  rw [View.set_slice_whole, Rect.mem_set_unit]
  exact Iff.rfl

/-- Every index of the result array is in some point's block: the point of its head and of its row's block of 512. -/
theorem cover (i : S48x2048x32.Idx) :
    ∃ t : Fin cfg0.N, (cfg0.win 3).flush t = true ∧ i ∈ ((cfg0.win 3).blk t).view.set := by
  have hi0 : (i 0).val < 48 := (i 0).isLt
  have hi1 : (i 1).val < 2048 := (i 1).isLt
  have hi2 : (i 2).val < 32 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 32 ≤ (i 2).val ∧ (i 2).val < win0_3.index t (2 : Fin 3) * 32 + 32; omega

/-- THE RESULT ARRAY after the run is the whole-array function of the three arrays the region finds. -/
theorem final (c : Dev nD) : (dats m 0 c).arrAt 3 cfg0.N = G (Qarr m c) (Karr m c) (Varr m c) :=
  (dats m 0 c).arrAt_eq_of_cover 3 (G (Qarr m c) (Karr m c) (Varr m c)) (fun t _ => flushed_eq m c t) (cover)

end Cert.KernelIdeal.Blocks

end
-- ==== Proof.HostSide.lean ====
/-
  The host side of the kernel program: its reshapes are the row-major re-indexing of the two leading axes.

  Before the region the program reshapes each of its three arguments from [4, 12, 2048, 32] to [48, 2048, 32],
  and after the region it reshapes the region's result back. A reshape keeps every element's row-major
  position, and the position of (b, h, s, e) in the first shape,
      ((b·12 + h)·2048 + s)·32 + e,
  is the position of (12·b + h, s, e) in the second. So head (b, h) of an argument is row block 12·b + h of
  its reshaped copy, and the program's result at (b, h, s, e) is the region's result at (12·b + h, s, e).
-/
import proofs.«414934_j37426345017597_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostSide

open Cert.KernelIdeal Cert.KernelIdeal.Gen Idealize.ShloMosaic Idealize.ShloMosaic.TcCoe Idealize.SL.Sem

variable (m : (ℓ : Loc nD τ sig) → Buf (Elt Ideal) ℓ)

/-- Head number 12·b + h. -/
def headIx (b : Fin 4) (h : Fin 12) : Fin 48 := ⟨12 * b.val + h.val, by omega⟩

/-! ## The two reshapes read at an index -/

section casts
variable {α : Type}

/-- [4, 12, 2048, 32] cast to [48, 2048, 32], read at (12·b + h, s, e), is the operand at (b, h, s, e): the two
    indices have the same row-major position. -/
theorem cast_4d_3d_apply (x : S4x12x2048x32.Idx → α) (hc : S4x12x2048x32.ShapeCasts S48x2048x32)
    (b : Fin 4) (h : Fin 12) (s : Fin 2048) (e : Fin 32) :
    shapeCast S48x2048x32 x hc (ValueIdx.ix3 (headIx b h) s e) = x (ValueIdx.ix4 b h s e) :=
  shapeCast_apply x hc _ _ (by
    rw [Shape.rowMajor_val_four, Shape.rowMajor_val_three]
    show ((b.val * 12 + h.val) * 2048 + s.val) * 32 + e.val = ((12 * b.val + h.val) * 2048 + s.val) * 32 + e.val
    omega)

/-- [48, 2048, 32] cast to [4, 12, 2048, 32], read at (b, h, s, e), is the operand at (12·b + h, s, e). -/
theorem cast_3d_4d_apply (x : S48x2048x32.Idx → α) (hc : S48x2048x32.ShapeCasts S4x12x2048x32)
    (b : Fin 4) (h : Fin 12) (s : Fin 2048) (e : Fin 32) :
    shapeCast S4x12x2048x32 x hc (ValueIdx.ix4 b h s e) = x (ValueIdx.ix3 (headIx b h) s e) :=
  shapeCast_apply x hc _ _ (by
    rw [Shape.rowMajor_val_four, Shape.rowMajor_val_three]
    show ((12 * b.val + h.val) * 2048 + s.val) * 32 + e.val = ((b.val * 12 + h.val) * 2048 + s.val) * 32 + e.val
    omega)

end casts

/-! ## Before the region: the three reshaped arguments -/

/-- The first reshaped buffer holds the cast of the first argument. -/
theorem V_main_v0_eq (c : Dev nD) :
    (V m c main_v0 : S48x2048x32.Idx → EReal)
      = shapeCast S48x2048x32 (m ((c : Thread nD τ).loc main_arg0) : S4x12x2048x32.Idx → EReal)
          shapeCasts_S4x12x2048x32_S48x2048x32 := by
  show StableHlo.after hostOps0 (fun b => m (c, b)) (Proc.devRef .tc main_v0) = _
  after_results
  rfl

/-- The second reshaped buffer holds the cast of the second argument. -/
theorem V_main_v1_eq (c : Dev nD) :
    (V m c main_v1 : S48x2048x32.Idx → EReal)
      = shapeCast S48x2048x32 (m ((c : Thread nD τ).loc main_arg1) : S4x12x2048x32.Idx → EReal)
          shapeCasts_S4x12x2048x32_S48x2048x32 := by
  show StableHlo.after hostOps0 (fun b => m (c, b)) (Proc.devRef .tc main_v1) = _
  after_results
  rfl

/-- The third reshaped buffer holds the cast of the third argument. -/
theorem V_main_v2_eq (c : Dev nD) :
    (V m c main_v2 : S48x2048x32.Idx → EReal)
      = shapeCast S48x2048x32 (m ((c : Thread nD τ).loc main_arg2) : S4x12x2048x32.Idx → EReal)
          shapeCasts_S4x12x2048x32_S48x2048x32 := by
  show StableHlo.after hostOps0 (fun b => m (c, b)) (Proc.devRef .tc main_v2) = _
  after_results
  rfl

/-- Row block 12·b + h of the first reshaped buffer is head (b, h) of the first argument. -/
theorem V_main_v0_apply (c : Dev nD) (b : Fin 4) (h : Fin 12) (s : Fin 2048) (e : Fin 32) :
    (V m c main_v0 : S48x2048x32.Idx → EReal) (ValueIdx.ix3 (headIx b h) s e)
      = (m ((c : Thread nD τ).loc main_arg0) : S4x12x2048x32.Idx → EReal) (ValueIdx.ix4 b h s e) :=
  (congrFun (V_main_v0_eq m c) (ValueIdx.ix3 (headIx b h) s e)).trans
    (cast_4d_3d_apply (m ((c : Thread nD τ).loc main_arg0) : S4x12x2048x32.Idx → EReal)
      shapeCasts_S4x12x2048x32_S48x2048x32 b h s e)

/-- Row block 12·b + h of the second reshaped buffer is head (b, h) of the second argument. -/
theorem V_main_v1_apply (c : Dev nD) (b : Fin 4) (h : Fin 12) (s : Fin 2048) (e : Fin 32) :
    (V m c main_v1 : S48x2048x32.Idx → EReal) (ValueIdx.ix3 (headIx b h) s e)
      = (m ((c : Thread nD τ).loc main_arg1) : S4x12x2048x32.Idx → EReal) (ValueIdx.ix4 b h s e) :=
  (congrFun (V_main_v1_eq m c) (ValueIdx.ix3 (headIx b h) s e)).trans
    (cast_4d_3d_apply (m ((c : Thread nD τ).loc main_arg1) : S4x12x2048x32.Idx → EReal)
      shapeCasts_S4x12x2048x32_S48x2048x32 b h s e)

/-- Row block 12·b + h of the third reshaped buffer is head (b, h) of the third argument. -/
theorem V_main_v2_apply (c : Dev nD) (b : Fin 4) (h : Fin 12) (s : Fin 2048) (e : Fin 32) :
    (V m c main_v2 : S48x2048x32.Idx → EReal) (ValueIdx.ix3 (headIx b h) s e)
      = (m ((c : Thread nD τ).loc main_arg2) : S4x12x2048x32.Idx → EReal) (ValueIdx.ix4 b h s e) :=
  (congrFun (V_main_v2_eq m c) (ValueIdx.ix3 (headIx b h) s e)).trans
    (cast_4d_3d_apply (m ((c : Thread nD τ).loc main_arg2) : S4x12x2048x32.Idx → EReal)
      shapeCasts_S4x12x2048x32_S48x2048x32 b h s e)

/-! ## After the region: the result reshaped back -/

/-- The program's result buffer holds the cast of the region's result array. -/
theorem tail_eq (c : Dev nD) :
    (Pipeline.afterTail₀ cfgs (dats m) 0 (V0 m) [hostOps1] c main_v4 : S4x12x2048x32.Idx → EReal)
      = shapeCast S4x12x2048x32 ((dats m 0 c).arrAt 3 cfg0.N : S48x2048x32.Idx → EReal)
          shapeCasts_S48x2048x32_S4x12x2048x32 := by
  unfold Pipeline.afterTail₀
  show StableHlo.after hostOps1 _ (Proc.devRef .tc main_v4) = _
  after_results
  have hw : Pipeline.withArrays (cfgs 0).spec c (V0 m c) (fun w => (dats m 0 c).arrAt w (cfgs 0).N)
        (Proc.devRef .tc main_v3) = (dats m 0 c).arrAt 3 cfg0.N :=
    Pipeline.withArrays_arr spec0 launch0.win.arr_inj c _ _ 3
  rw [hw]
  rfl

/-- The program's result at (b, h, s, e) is the region's result array at (12·b + h, s, e). -/
theorem tail_apply (c : Dev nD) (b : Fin 4) (h : Fin 12) (s : Fin 2048) (e : Fin 32) :
    (Pipeline.afterTail₀ cfgs (dats m) 0 (V0 m) [hostOps1] c main_v4 : S4x12x2048x32.Idx → EReal) (ValueIdx.ix4 b h s e)
      = ((dats m 0 c).arrAt 3 cfg0.N : S48x2048x32.Idx → EReal) (ValueIdx.ix3 (headIx b h) s e) :=
  (congrFun (tail_eq m c) (ValueIdx.ix4 b h s e)).trans
    (cast_3d_4d_apply ((dats m 0 c).arrAt 3 cfg0.N : S48x2048x32.Idx → EReal)
      shapeCasts_S48x2048x32_S4x12x2048x32 b h s e)

end Cert.KernelIdeal.HostSide

end
-- ==== Proof.KernelValue.lean ====
/-
  The kernel program's result, read at one output position.

  The program reshapes the three arguments from [4, 12, 2048, 32] to [48, 2048, 32] (head number 12·b + h), launches
  the grid, and reshapes the result back. So its result at (b, h, s, d) is the grid's result array at (12·b + h, s, d),
  which is the tiled attention output of query row s of head (b, h) against that head's key and value rows.
-/
import proofs.«414934_j37426345017597_3_alg».proof.Proof.Blocks
import proofs.«414934_j37426345017597_3_alg».proof.Proof.HostSide

noncomputable section

open Idealize.ShloMosaic Idealize.ShloMosaic.TcCoe Idealize.ShloMosaic.ValueIdx Idealize.SL.Sem

namespace Cert.KernelIdeal.Value

open Cert.KernelIdeal Cert.KernelIdeal.Gen Cert.Attn

variable (m : (ℓ : Loc nD τ sig) → Buf (Elt Ideal) ℓ)

/-- The kernel program's result at (b, h, s, d). -/
theorem result_apply (c : Dev nD) (b : Fin 4) (h : Fin 12) (s : Fin 2048) (d : Fin 32) :
    (Pipeline.afterTail₀ cfgs (dats m) 0 (V0 m) [hostOps1] c main_v4 : S4x12x2048x32.Idx → EReal) (ix4 b h s d)
      = tiledOut (fun e => (m ((c : Thread nD τ).loc main_arg0) : S4x12x2048x32.Idx → EReal) (ix4 b h s e))
          (fun k e => (m ((c : Thread nD τ).loc main_arg1) : S4x12x2048x32.Idx → EReal) (ix4 b h k e))
          (fun k e => (m ((c : Thread nD τ).loc main_arg2) : S4x12x2048x32.Idx → EReal) (ix4 b h k e)) d := by
  rw [HostSide.tail_apply, Blocks.final]
  show Blocks.G (Blocks.Qarr m c) (Blocks.Karr m c) (Blocks.Varr m c) (ix3 (HostSide.headIx b h) s d) = _
  rw [Blocks.G_ix3]
  unfold Blocks.rowOut
  have hq : (fun e => Blocks.Qarr m c (ix3 (HostSide.headIx b h) s e))
      = fun e => (m ((c : Thread nD τ).loc main_arg0) : S4x12x2048x32.Idx → EReal) (ix4 b h s e) :=
    funext fun e => HostSide.V_main_v0_apply m c b h s e
  have hk : (fun k e => Blocks.Karr m c (ix3 (HostSide.headIx b h) k e))
      = fun k e => (m ((c : Thread nD τ).loc main_arg1) : S4x12x2048x32.Idx → EReal) (ix4 b h k e) :=
    funext fun k => funext fun e => HostSide.V_main_v1_apply m c b h k e
  have hv : (fun k e => Blocks.Varr m c (ix3 (HostSide.headIx b h) k e))
      = fun k e => (m ((c : Thread nD τ).loc main_arg2) : S4x12x2048x32.Idx → EReal) (ix4 b h k e) :=
    funext fun k => funext fun e => HostSide.V_main_v2_apply m c b h k e
  rw [hq, hk, hv]

end Cert.KernelIdeal.Value

end
-- ==== Proof.RefValue.lean ====
/-
  The reference program's result, read at one output position, is the whole-row attention sum.

  At batch b, head h, query row r and feature d the reference computes, one operation after another:
  the feature product of query row r with every key row k, divided by the constant divisor; the two
  exponentials of that score and of its negation; their difference and their sum; the sum over all keys
  of the latter (from the initial value zero), broadcast back along the key axis; the quotient of the
  difference by that sum; and last the sum over the keys of the quotient times the value row's feature d.
  Reading each operation at an index turns this chain into `wholeOut` of the three rows of head (b, h).
-/
import proofs.«414934_j37426345017597_3_alg».proof.Proof.Spec
import proofs.«414934_j37426345017597_3_alg».proof.Proof.Gen.ReferenceIdeal.Read
import Idealize.ShloMosaic.Lib.ValueIdx

noncomputable section

namespace Cert.Attn.Ref

open Idealize.ShloMosaic Cert.ReferenceIdeal Cert.ReferenceIdeal.Read

/-! The index maps of the reference's operations, at an index given by its four coordinates. -/

/-- The last product reads the quotient at (b, h, r, k). -/
theorem lidx12_ix4 (b : Fin 4) (h : Fin 12) (r : Fin 2048) (d : Fin 32) (k : Fin 2048) :
    lidx_main_v12 (ValueIdx.ix4 b h r d) k = ValueIdx.ix4 b h r k :=
  funext fun a => Fin.ext (by match a with | ⟨0, _⟩ => rfl | ⟨1, _⟩ => rfl | ⟨2, _⟩ => rfl | ⟨3, _⟩ => rfl)

/-- The last product reads the value rows at (b, h, k, d). -/
theorem ridx12_ix4 (b : Fin 4) (h : Fin 12) (r : Fin 2048) (d : Fin 32) (k : Fin 2048) :
    ridx_main_v12 (ValueIdx.ix4 b h r d) k = ValueIdx.ix4 b h k d :=
  funext fun a => Fin.ext (by match a with | ⟨0, _⟩ => rfl | ⟨1, _⟩ => rfl | ⟨2, _⟩ => rfl | ⟨3, _⟩ => rfl)

/-- The broadcast of the normaliser along the key axis reads it at (b, h, r, 0). -/
theorem idx10_ix4 (b : Fin 4) (h : Fin 12) (r : Fin 2048) (k : Fin 2048) :
    idx_main_v10 (ValueIdx.ix4 b h r k) = ValueIdx.ix4 b h r (0 : Fin 1) :=
  funext fun a => Fin.ext (by match a with | ⟨0, _⟩ => rfl | ⟨1, _⟩ => rfl | ⟨2, _⟩ => rfl | ⟨3, _⟩ => rfl)

/-- The broadcast that adds the unit axis reads the normaliser at (b, h, r). -/
theorem idx9_ix4 (b : Fin 4) (h : Fin 12) (r : Fin 2048) (z : Fin 1) :
    idx_main_v9 (ValueIdx.ix4 b h r z) = ValueIdx.ix3 b h r :=
  funext fun a => Fin.ext (by match a with | ⟨0, _⟩ => rfl | ⟨1, _⟩ => rfl | ⟨2, _⟩ => rfl)

/-- The normaliser's sum runs over the keys k' at (b, h, r, k'). -/
theorem idx8_ix3 (b : Fin 4) (h : Fin 12) (r : Fin 2048) (k' : Fin 2048) :
    idx_main_v8 (ValueIdx.ix3 b h r) k' = ValueIdx.ix4 b h r k' :=
  funext fun a => Fin.ext (by match a with | ⟨0, _⟩ => rfl | ⟨1, _⟩ => rfl | ⟨2, _⟩ => rfl | ⟨3, _⟩ => rfl)

/-- The score's feature product reads the query rows at (b, h, r, e). -/
theorem lidx0_ix4 (b : Fin 4) (h : Fin 12) (r : Fin 2048) (k : Fin 2048) (e : Fin 32) :
    lidx_main_v0 (ValueIdx.ix4 b h r k) e = ValueIdx.ix4 b h r e :=
  funext fun a => Fin.ext (by match a with | ⟨0, _⟩ => rfl | ⟨1, _⟩ => rfl | ⟨2, _⟩ => rfl | ⟨3, _⟩ => rfl)

/-- The score's feature product reads the key rows at (b, h, k, e). -/
theorem ridx0_ix4 (b : Fin 4) (h : Fin 12) (r : Fin 2048) (k : Fin 2048) (e : Fin 32) :
    ridx_main_v0 (ValueIdx.ix4 b h r k) e = ValueIdx.ix4 b h k e :=
  funext fun a => Fin.ext (by match a with | ⟨0, _⟩ => rfl | ⟨1, _⟩ => rfl | ⟨2, _⟩ => rfl | ⟨3, _⟩ => rfl)

/-! The stages, one at a time, at an index of head (b, h) and query row r. -/

section stages

variable (x0 x1 : (⟨S4x12x2048x32, .f32⟩ : BufTy).Contents (Elt Ideal))
variable (b : Fin 4) (h : Fin 12) (r : Fin 2048)

/-- The scaled score of key k: the feature product divided by the constant divisor. -/
theorem v2_ix4 (k : Fin 2048) :
    val_main_v2 (F := Ideal) x0 x1 (ValueIdx.ix4 b h r k)
      = divScore (fun e => x0 (ValueIdx.ix4 b h r e)) (fun e => x1 (ValueIdx.ix4 b h k e)) := by
  rw [val_main_v2_apply, val_main_v0_apply, val_main_v1_apply, val_main_cst_apply]
  simp only [lidx0_ix4, ridx0_ix4, Ideal.hostDivf_def, Ideal.ofBits_def]
  rfl

/-- The exponential of the score. -/
theorem v3_ix4 (k : Fin 2048) :
    val_main_v3 (F := Ideal) x0 x1 (ValueIdx.ix4 b h r k)
      = Ideal.exp (divScore (fun e => x0 (ValueIdx.ix4 b h r e)) (fun e => x1 (ValueIdx.ix4 b h k e))) := by
  rw [val_main_v3_apply, v2_ix4, Ideal.hostUnary_exp_def]

/-- The exponential of the negated score. -/
theorem v5_ix4 (k : Fin 2048) :
    val_main_v5 (F := Ideal) x0 x1 (ValueIdx.ix4 b h r k)
      = Ideal.exp (-(divScore (fun e => x0 (ValueIdx.ix4 b h r e)) (fun e => x1 (ValueIdx.ix4 b h k e)))) := by
  rw [val_main_v5_apply, val_main_v4_apply, v2_ix4, Ideal.hostUnary_exp_def, Ideal.hostNegf_def, Ideal.negf_def]

/-- The normaliser of query row r, broadcast to key k: zero plus the sum over all keys of the two exponentials. -/
theorem v10_ix4 (k : Fin 2048) :
    val_main_v10 (F := Ideal) x0 x1 (ValueIdx.ix4 b h r k)
      = 0 + ∑ k' : Fin 2048,
          (Ideal.exp (divScore (fun e => x0 (ValueIdx.ix4 b h r e)) (fun e => x1 (ValueIdx.ix4 b h k' e)))
            + Ideal.exp (-(divScore (fun e => x0 (ValueIdx.ix4 b h r e)) (fun e => x1 (ValueIdx.ix4 b h k' e))))) := by
  rw [val_main_v10_apply, idx10_ix4, val_main_v9_apply, idx9_ix4, val_main_v8_apply, val_main_cst_0_apply,
    Ideal.ofBits_def, Ideal.ofBits_zero_f32]
  refine congrArg (0 + ·) (Finset.sum_congr rfl fun k' _ => ?_)
  rw [idx8_ix3, val_main_v7_apply, v3_ix4, v5_ix4, Ideal.addf_def]

/-- The normalised weight of key k. -/
theorem v11_ix4 (k : Fin 2048) :
    val_main_v11 (F := Ideal) x0 x1 (ValueIdx.ix4 b h r k)
      = Ideal.div
          (Ideal.exp (divScore (fun e => x0 (ValueIdx.ix4 b h r e)) (fun e => x1 (ValueIdx.ix4 b h k e)))
            - Ideal.exp (-(divScore (fun e => x0 (ValueIdx.ix4 b h r e)) (fun e => x1 (ValueIdx.ix4 b h k e)))))
          (0 + ∑ k' : Fin 2048,
            (Ideal.exp (divScore (fun e => x0 (ValueIdx.ix4 b h r e)) (fun e => x1 (ValueIdx.ix4 b h k' e)))
              + Ideal.exp (-(divScore (fun e => x0 (ValueIdx.ix4 b h r e)) (fun e => x1 (ValueIdx.ix4 b h k' e)))))) := by
  rw [val_main_v11_apply, val_main_v6_apply, v3_ix4, v5_ix4, v10_ix4, Ideal.hostDivf_def, Ideal.subf_def]

end stages

/-- The reference's output at (b, h, r, d) is the whole-row attention sum of that head's rows. -/
theorem ref_apply (x0 x1 x2 : (⟨Cert.ReferenceIdeal.S4x12x2048x32, .f32⟩ : BufTy).Contents (Elt Ideal))
    (b : Fin 4) (h : Fin 12) (r : Fin 2048) (d : Fin 32) :
    Cert.ReferenceIdeal.Read.val_main_v12 (F := Ideal) x0 x1 x2 (ValueIdx.ix4 b h r d)
      = Cert.Attn.wholeOut (fun e => x0 (ValueIdx.ix4 b h r e)) (fun k e => x1 (ValueIdx.ix4 b h k e))
          (fun k e => x2 (ValueIdx.ix4 b h k e)) d := by
  rw [val_main_v12_apply]
  unfold wholeOut
  refine Finset.sum_congr rfl fun k _ => ?_
  rw [lidx12_ix4, ridx12_ix4, v11_ix4]

end Cert.Attn.Ref

end
-- ==== Proof.Finite.lean ====
/-
  Finiteness of the inputs, read back from the printed precondition.

  The precondition is the conjunction of three statements of one kind: over a whole array, every entry's
  absolute value lies strictly below +∞. On the extended reals the absolute value of x is max x (−x), and
  an extended real with max x (−x) < ⊤ is neither ⊤ nor ⊥, hence a real number. One lemma reads one such
  statement; the theorem uses it for each of the three arrays.
-/
import proofs.«414934_j37426345017597_3_alg».proof.Proof.Gen.Pre_finite_inputs
import Idealize.ShloMosaic.Lib.ReduceAll
import Idealize.ShloMosaic.Lib.ValueIdx
import Idealize.ShloMosaic.PureOps.Ideal.Laws

namespace Cert.Attn

open Idealize.ShloMosaic Cert.Pre_finite_inputs

/-- The word with exponent all ones and fraction zero is +∞. -/
theorem posInf_bits : Ideal.ofBits .f32 0x7F800000#32 = (⊤ : EReal) := by
  simp [Ideal.ofBits, Ideal.ieee]

/-- An extended real whose absolute value max x (−x) is below ⊤ is a real: at ⊥ the negation is ⊤, at ⊤
    the value itself is, and in both cases the maximum is ⊤. -/
theorem exists_real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The result of a reduction over all four axes has a single index. -/
instance subsingleton_scalarIdx : Subsingleton S_.Idx := ⟨fun a b => funext fun d => d.elim0⟩

/-- One array: if the conjunction over all entries of "|y i| < +∞" is true, every entry of y is a real. -/
theorem entries_real (y : FVec Ideal S4x12x2048x32 .f32) (init : IVec S_ 1)
    (hb : S_.BroadcastsInDim S4x12x2048x32 (![] : Fin 0 → Fin S4x12x2048x32.rank))
    (hr : S4x12x2048x32.ReducesTo [0, 1, 2, 3] S_) (hu : 0 < S_.numel) (j : S_.Idx)
    (h : Host.reduce IntOp.andi
        (cmpf .olt (Host.absf y) (broadcastInDim S4x12x2048x32 ![] hb (constant S_ .f32 0x7F800000#32)))
        init hr hu j = 1#1) :
    ∀ i, ∃ r : ℝ, y i = (r : EReal) := by
  intro i
  -- the entry of the compared array at i is 1
  have hi := Host.reduce_andi_all _ init hr hu j h i
  -- that entry is the comparison max (y i) (−(y i)) < +∞, as a bit
  have hlt : max (y i : EReal) (-(y i : EReal)) < ⊤ := by
    have hi' : Ideal.cmp .olt (max (y i : EReal) (-(y i : EReal))) (Ideal.ofBits .f32 0x7F800000#32) = 1#1 := hi
    rw [posInf_bits] at hi'
    unfold Ideal.cmp at hi'
    by_contra hn
    simp [hn] at hi'
  exact exists_real_of_abs_lt_top (y i) hlt

/-- The precondition gives: all three float inputs have only real entries. -/
theorem real_of_pre (x0 x1 x2 : FVec Ideal Cert.Pre_finite_inputs.S4x12x2048x32 .f32)
    (x3 : IVec Cert.Pre_finite_inputs.S4x12x2048x2048 1)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  -- the value is (a₀ ∧ a₁) ∧ a₂, one conjunct per array
  obtain ⟨h01, h2⟩ := IntOp.andi_eq_one.1 h0
  obtain ⟨h0', h1⟩ := IntOp.andi_eq_one.1 h01
  exact ⟨entries_real x0 _ _ _ _ _ h0', entries_real x1 _ _ _ _ _ h1, entries_real x2 _ _ _ _ _ h2⟩

end Cert.Attn
-- ==== Proof.Algebra.lean ====
/-
  The two spellings of the two-sided exponential attention agree on real inputs.

  With q, K, V real, the feature product of two rows is a real, and both scaled scores are the same real
  s k = (Σ_d q d · K k d) · 2097152/11863283: the binary32 pattern 0x40B504F3 denotes 11863283/2097152, and the
  division by a nonzero real is the product with its reciprocal. The exponentials e⁺ k = exp (s k) and
  e⁻ k = exp (−s k) are positive reals, so the normaliser Z = Σ_k (e⁺ k + e⁻ k) is a positive real. The four
  tiles of 512 keys list each of the 2048 keys once, so the running sums of the tiled spelling are the sums over
  all keys. What is left is the real identity
      (Σ_k (e⁺ k − e⁻ k) · V k d) · (1/Z) = Σ_k ((e⁺ k − e⁻ k) · (1/Z)) · V k d.
-/
import proofs.«414934_j37426345017597_3_alg».proof.Proof.Spec
import Mathlib.Algebra.BigOperators.Fin
import Mathlib.Algebra.BigOperators.Ring.Finset
import Mathlib.Data.Fintype.BigOperators
import Mathlib.Data.Fintype.EquivFin
import Mathlib.Analysis.Complex.Exponential
import Mathlib.Data.EReal.Operations

noncomputable section

namespace Cert.Attn

open Idealize.ShloMosaic

/-! ### Coercions -/

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Four real summands added to zero from the left, one after the other. -/
theorem coe_tiles (a b c e : ℝ) :
    ((((0 : EReal) + (a : EReal)) + (b : EReal)) + (c : EReal)) + (e : EReal) = (((((0 + a) + b) + c) + e : ℝ) : EReal) := by
  simp only [EReal.coe_add, EReal.coe_zero]

/-- The score divisor: the pattern 0x40B504F3 has exponent field 129 and fraction 3474675, so it denotes
    (2^23 + 3474675) · 2^(129 − 127 − 23) = 11863283 / 2097152. -/
theorem divisor_eq : Ideal.ofBits .f32 0x40B504F3#32 = ((11863283 / 2097152 : ℝ) : EReal) := by
  simp [Ideal.ofBits, Ideal.ieee, -EReal.coe_mul]; norm_num

/-! ### The real score and the real weights -/

/-- The real scaled score of a query row against a key row. -/
def score (q kr : Fin 32 → ℝ) : ℝ := (∑ d : Fin 32, q d * kr d) * (2097152 / 11863283)

/-- Key k's share of the normaliser: e⁺ k + e⁻ k. -/
def den (q : Fin 32 → ℝ) (K : Fin 2048 → Fin 32 → ℝ) (k : Fin 2048) : ℝ :=
  Real.exp (score q (K k)) + Real.exp (-(score q (K k)))

/-- Key k's share of the numerator of feature d: (e⁺ k − e⁻ k) · V k d. -/
def num (q : Fin 32 → ℝ) (K V : Fin 2048 → Fin 32 → ℝ) (d : Fin 32) (k : Fin 2048) : ℝ :=
  (Real.exp (score q (K k)) - Real.exp (-(score q (K k)))) * V k d

/-- The feature product of two real rows is the real feature product. -/
theorem rowDot_coe (x y : Fin 32 → ℝ) :
    rowDot (fun d => (x d : EReal)) (fun d => (y d : EReal)) = ((∑ d : Fin 32, x d * y d : ℝ) : EReal) := by
  rw [rowDot, coe_sum]; simp only [EReal.coe_mul]

/-- The score by the reciprocal, on real rows. -/
theorem mulScore_coe (x y : Fin 32 → ℝ) :
    mulScore (fun d => (x d : EReal)) (fun d => (y d : EReal)) = (score x y : EReal) := by
  rw [mulScore, rowDot_coe, invDiv, ← EReal.coe_mul, score]

/-- The score by the division, on real rows: the same real. -/
theorem divScore_coe (x y : Fin 32 → ℝ) :
    divScore (fun d => (x d : EReal)) (fun d => (y d : EReal)) = (score x y : EReal) := by
  rw [divScore, rowDot_coe, divisor_eq, Ideal.div_coe (by norm_num), ← EReal.coe_mul, score]
  norm_num

/-! ### The four tiles list every key once -/

theorem tileKey_bijective : Function.Bijective (fun p : Fin 4 × Fin 512 => tileKey p.1 p.2) := by
  rw [Fintype.bijective_iff_injective_and_card]
  refine ⟨?_, by simp⟩
  rintro ⟨j, k⟩ ⟨j', k'⟩ h
  have h' : 512 * j.val + k.val = 512 * j'.val + k'.val := congrArg Fin.val h
  have hk := k.isLt
  have hk' := k'.isLt
  have hj : j.val = j'.val := by omega
  have hkk : k.val = k'.val := by omega
  exact Prod.ext (Fin.ext hj) (Fin.ext hkk)

/-- Tile after tile from zero, the four tile sums make the sum over all keys. -/
theorem sum_tiles (f : Fin 2048 → ℝ) :
    (((0 + ∑ k : Fin 512, f (tileKey 0 k)) + ∑ k : Fin 512, f (tileKey 1 k)) + ∑ k : Fin 512, f (tileKey 2 k))
      + ∑ k : Fin 512, f (tileKey 3 k) = ∑ k : Fin 2048, f k := by
  rw [← Fintype.sum_bijective _ tileKey_bijective (fun p => f (tileKey p.1 p.2)) f (fun _ => rfl),
    Fintype.sum_prod_type, Fin.sum_univ_four, zero_add]

/-! ### Each spelling as the coercion of one real expression -/

theorem tileDen_coe (q : Fin 32 → ℝ) (K : Fin 2048 → Fin 32 → ℝ) (j : Fin 4) :
    tileDen (fun d => (q d : EReal)) (fun k d => (K k d : EReal)) j
      = ((∑ k : Fin 512, den q K (tileKey j k) : ℝ) : EReal) := by
  rw [coe_sum]
  simp only [tileDen, den, mulScore_coe, zero_sub, ← EReal.coe_neg, Ideal.exp_coe, EReal.coe_add]

theorem tileNum_coe (q : Fin 32 → ℝ) (K V : Fin 2048 → Fin 32 → ℝ) (j : Fin 4) (d : Fin 32) :
    tileNum (fun d => (q d : EReal)) (fun k d => (K k d : EReal)) (fun k d => (V k d : EReal)) j d
      = ((∑ k : Fin 512, num q K V d (tileKey j k) : ℝ) : EReal) := by
  rw [coe_sum]
  simp only [tileNum, num, mulScore_coe, zero_sub, ← EReal.coe_neg, Ideal.exp_coe, EReal.coe_sub, EReal.coe_mul]

/-- The normaliser is a positive real. -/
theorem den_sum_pos (q : Fin 32 → ℝ) (K : Fin 2048 → Fin 32 → ℝ) : 0 < ∑ k : Fin 2048, den q K k :=
  Finset.sum_pos (fun k _ => add_pos (Real.exp_pos _) (Real.exp_pos _)) Finset.univ_nonempty

/-- The tiled spelling: the quotient of the two sums over all keys. -/
theorem tiledOut_coe (q : Fin 32 → ℝ) (K V : Fin 2048 → Fin 32 → ℝ) (d : Fin 32) :
    tiledOut (fun d => (q d : EReal)) (fun k d => (K k d : EReal)) (fun k d => (V k d : EReal)) d
      = Ideal.div ((∑ k : Fin 2048, num q K V d k : ℝ) : EReal) ((∑ k : Fin 2048, den q K k : ℝ) : EReal) := by
  rw [tiledOut]
  simp only [tileNum_coe, tileDen_coe, coe_tiles]
  rw [sum_tiles (num q K V d), sum_tiles (den q K)]

/-- The normaliser of the whole spelling, its exponentials already read as reals. -/
theorem den_coe_sum (q : Fin 32 → ℝ) (K : Fin 2048 → Fin 32 → ℝ) :
    (∑ k : Fin 2048, ((Real.exp (score q (K k)) : EReal) + (Real.exp (-(score q (K k))) : EReal)))
      = ((∑ k : Fin 2048, den q K k : ℝ) : EReal) := by
  rw [coe_sum]
  simp only [den, EReal.coe_add]

/-- The whole spelling: every weight times the reciprocal of the normaliser, then the weighted sum. -/
theorem wholeOut_coe (q : Fin 32 → ℝ) (K V : Fin 2048 → Fin 32 → ℝ) (d : Fin 32) :
    wholeOut (fun d => (q d : EReal)) (fun k d => (K k d : EReal)) (fun k d => (V k d : EReal)) d
      = ((∑ k : Fin 2048, num q K V d k * (1 / ∑ k' : Fin 2048, den q K k') : ℝ) : EReal) := by
  have hZ : (∑ k' : Fin 2048, den q K k') ≠ 0 := (den_sum_pos q K).ne'
  rw [coe_sum]
  simp only [wholeOut, divScore_coe, ← EReal.coe_neg, Ideal.exp_coe, zero_add, den_coe_sum]
  simp only [Ideal.div_coe hZ, ← EReal.coe_sub, ← EReal.coe_mul]
  refine Finset.sum_congr rfl fun k _ => ?_
  rw [num, EReal.coe_eq_coe_iff]; ring

/-! ### The two spellings agree -/

theorem tiledOut_eq_wholeOut (q : Fin 32 → EReal) (K V : Fin 2048 → Fin 32 → EReal)
    (hq : ∀ d, ∃ r : ℝ, q d = (r : EReal)) (hK : ∀ k d, ∃ r : ℝ, K k d = (r : EReal)) (hV : ∀ k d, ∃ r : ℝ, V k d = (r : EReal))
    (d : Fin 32) : tiledOut q K V d = wholeOut q K V d := by
  choose qr hq using hq
  choose Kr hK using hK
  choose Vr hV using hV
  obtain rfl : q = fun d => (qr d : EReal) := funext hq
  obtain rfl : K = fun k d => (Kr k d : EReal) := funext fun k => funext (hK k)
  obtain rfl : V = fun k d => (Vr k d : EReal) := funext fun k => funext (hV k)
  rw [tiledOut_coe, wholeOut_coe, Ideal.div_coe (den_sum_pos qr Kr).ne', ← EReal.coe_mul, Finset.sum_mul]

end Cert.Attn

end
-- ==== Proof.lean ====
/- The proof of `Cert.Claim`: the attention kernel (two-sided exponential weights, the keys streamed in four tiles,
   one division at the end) against the whole-array reference, over the extended reals.

   The three frames are the generated runs. The idealization names the kernel's score scale as the exact reciprocal
   2097152/11863283 of the reference's divisor 11863283/2097152; its four sites are the four conjuncts of `preserves`.
   For `algebraic`: the kernel program's result at (b, h, s, d) is the tiled output of query row s of head (b, h)
   (Proof/KernelValue.lean, over Proof/Blocks.lean, Proof/Body.lean, Proof/BodyValue.lean, Proof/HostSide.lean); the
   reference's is the whole-row output of the same rows (Proof/RefValue.lean); under the precondition every entry of
   the three arrays is real (Proof/Finite.lean), and on real rows the two outputs agree (Proof/Algebra.lean): the
   product with the reciprocal is the quotient, the four tiles re-index the keys, and with a positive real normaliser
   the division distributes over the sum. -/
import proofs.«414934_j37426345017597_3_alg».proof.Defs
import proofs.«414934_j37426345017597_3_alg».proof.Proof.Gen.Kernel
import proofs.«414934_j37426345017597_3_alg».proof.Proof.Gen.Kernel.Skeleton
import proofs.«414934_j37426345017597_3_alg».proof.Proof.Gen.Kernel.Launch
import proofs.«414934_j37426345017597_3_alg».proof.Proof.Gen.Kernel.Points
import proofs.«414934_j37426345017597_3_alg».proof.Proof.Gen.Kernel.Frame
import proofs.«414934_j37426345017597_3_alg».proof.Proof.Gen.KernelIdeal
import proofs.«414934_j37426345017597_3_alg».proof.Proof.Gen.KernelIdeal.Skeleton
import proofs.«414934_j37426345017597_3_alg».proof.Proof.Gen.KernelIdeal.Launch
import proofs.«414934_j37426345017597_3_alg».proof.Proof.Gen.KernelIdeal.Points
import proofs.«414934_j37426345017597_3_alg».proof.Proof.Gen.KernelIdeal.Frame
import proofs.«414934_j37426345017597_3_alg».proof.Proof.Gen.ReferenceIdeal
import proofs.«414934_j37426345017597_3_alg».proof.Proof.Gen.ReferenceIdeal.Run
import proofs.«414934_j37426345017597_3_alg».proof.Proof.Gen.ReferenceIdeal.Read
import proofs.«414934_j37426345017597_3_alg».proof.Proof.Gen.Pre_finite_inputs
import proofs.«414934_j37426345017597_3_alg».proof.Proof.KernelValue
import proofs.«414934_j37426345017597_3_alg».proof.Proof.RefValue
import proofs.«414934_j37426345017597_3_alg».proof.Proof.Finite
import proofs.«414934_j37426345017597_3_alg».proof.Proof.Algebra
import Idealize.ShloMosaic.Adequacy
import Idealize.ShloMosaic.Init

noncomputable section

namespace Cert.Proof

open Idealize.ShloMosaic Idealize.ShloMosaic.ValueIdx Idealize.SL.Sem

/-- The four sites of the named scale: the table gives the name the reciprocal of the reference's divisor. -/
theorem preserves : Cert.preserves_Kernel_KernelIdeal :=
  ⟨IdealRules.named_const.statement Cert.KernelIdeal.κ "inv_sqrt_dk" .f32 0x3E3504F3#32 ((2097152 / 11863283 : ℝ) : EReal) rfl,
    IdealRules.named_const.statement Cert.KernelIdeal.κ "inv_sqrt_dk" .f32 0x3E3504F3#32 ((2097152 / 11863283 : ℝ) : EReal) rfl,
    IdealRules.named_const.statement Cert.KernelIdeal.κ "inv_sqrt_dk" .f32 0x3E3504F3#32 ((2097152 / 11863283 : ℝ) : EReal) rfl,
    IdealRules.named_const.statement Cert.KernelIdeal.κ "inv_sqrt_dk" .f32 0x3E3504F3#32 ((2097152 / 11863283 : ℝ) : EReal) rfl⟩

/-- Both programs end with the same result: index by index the tiled output of real rows is the whole-row output. -/
theorem algebraic : Cert.algebraic_KernelIdeal_ReferenceIdeal := by
  intro m ρ m' ρ' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v4, ?_, ?_⟩
  · exact (θ_run Cert.KernelIdeal.defs _ _).mono (fun r h c =>
      ⟨(h c).2 Cert.KernelIdeal.main_v4 (Pipeline.mem_restRefs_of Cert.KernelIdeal.main_v4 (by decide) (by decide)),
        ((h c).2 Cert.KernelIdeal.main_arg0 (Pipeline.mem_restRefs_of Cert.KernelIdeal.main_arg0 (by decide) (by decide))).trans
          (Cert.KernelIdeal.Gen.W_main_arg0 m (Cert.KernelIdeal.Gen.dats m) c),
        ((h c).2 Cert.KernelIdeal.main_arg1 (Pipeline.mem_restRefs_of Cert.KernelIdeal.main_arg1 (by decide) (by decide))).trans
          (Cert.KernelIdeal.Gen.W_main_arg1 m (Cert.KernelIdeal.Gen.dats m) c),
        ((h c).2 Cert.KernelIdeal.main_arg2 (Pipeline.mem_restRefs_of Cert.KernelIdeal.main_arg2 (by decide) (by decide))).trans
          (Cert.KernelIdeal.Gen.W_main_arg2 m (Cert.KernelIdeal.Gen.dats m) c),
        ((h c).2 Cert.KernelIdeal.main_arg3 (Pipeline.mem_restRefs_of Cert.KernelIdeal.main_arg3 (by decide) (by decide))).trans
          (Cert.KernelIdeal.Gen.W_main_arg3 m (Cert.KernelIdeal.Gen.dats m) c)⟩)
      (Cert.KernelIdeal.Gen.run_main m ρ)
  · refine (θ_run Cert.ReferenceIdeal.defs _ _).mono (fun r h c => ⟨(h c).1.trans ?_, (h c).2⟩)
      (Cert.ReferenceIdeal.Value.run (F := Ideal) m' ρ')
    obtain ⟨hq, hk, hv⟩ := Cert.Attn.real_of_pre _ _ _ _ (hpre c)
    show Cert.ReferenceIdeal.Read.val_main_v12 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = _
    rw [(hagree c).1, (hagree c).2.1, (hagree c).2.2.1]
    funext i
    obtain ⟨b, hd, s, d, rfl⟩ : ∃ (b : Fin 4) (hd : Fin 12) (s : Fin 2048) (d : Fin 32), i = ix4 b hd s d :=
      ⟨i 0, i 1, i 2, i 3, eq_ix4 i⟩
    rw [Cert.Attn.Ref.ref_apply]
    refine Eq.trans ?_ (Cert.KernelIdeal.Value.result_apply m c b hd s d).symm
    exact (Cert.Attn.tiledOut_eq_wholeOut _ _ _ (fun e => hq _) (fun k e => hk _) (fun k e => hv _) _).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    preserves, algebraic⟩

end Cert.Proof

end
